-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 56
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S1x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The dense half of a two-layer mean-aggregation graph layer, as a function of matrices over the extended reals.

  One layer takes a matrix `a` of neighbour means and a matrix `f` of node features (both n × k), two weight matrices
  (k × o) and a bias row, and returns, at row i and column j,
      Σ_t a(i, t) · wl(t, j)  +  Σ_t f(i, t) · wr(t, j)  +  b(j).
  The two programs compared differ only in WHERE the bias is added: after both products, or between them. Addition of
  extended reals is commutative and associative (also at the infinities), so the two orders agree, with no finiteness
  needed. A layer is row-local: row i of the result reads only row i of `a` and of `f`.
-/
import Idealize.ShloMosaic.PureOps.Ideal.Laws
import Idealize.ShloMosaic.Lib.ValueIdx

noncomputable section

namespace Cert.Sage

open Idealize.ShloMosaic Idealize.ShloMosaic.ValueIdx

/-- A matrix of extended reals with `r` rows and `c` columns. -/
abbrev Mat (r c : Nat) : Type := (⟨2, ![r, c]⟩ : Shape).Idx → EReal
/-- A vector of extended reals of length `c`. -/
abbrev Vec1 (c : Nat) : Type := (⟨1, ![c]⟩ : Shape).Idx → EReal

/-- A vector laid out as a one-row matrix. -/
def rowOf {c : Nat} (v : Vec1 c) : Mat 1 c := fun i => v (ix1 (i 1))

/-- The dense layer, bias added after both products. -/
def dense {n k o : Nat} (a f : Mat n k) (wl wr : Mat k o) (b : Mat 1 o) : Mat n o := fun j =>
  (∑ t : Fin k, a (ix2 (j 0) t) * wl (ix2 t (j 1)) + ∑ t : Fin k, f (ix2 (j 0) t) * wr (ix2 t (j 1)))
    + b (ix2 (0 : Fin 1) (j 1))

/-- The dense layer, bias added between the two products. -/
def denseMid {n k o : Nat} (a f : Mat n k) (wl wr : Mat k o) (b : Mat 1 o) : Mat n o := fun j =>
  (∑ t : Fin k, a (ix2 (j 0) t) * wl (ix2 t (j 1)) + b (ix2 (0 : Fin 1) (j 1)))
    + ∑ t : Fin k, f (ix2 (j 0) t) * wr (ix2 t (j 1))

/-- The two orders of adding the bias agree: `(p + b) + q = (p + q) + b` in any commutative additive semigroup. -/
theorem denseMid_eq {n k o : Nat} (a f : Mat n k) (wl wr : Mat k o) (b : Mat 1 o) :
    denseMid a f wl wr b = dense a f wl wr b :=
  funext fun _ => add_right_comm _ _ _

/-- The rectifier: the larger of each entry and zero. -/
def relu {n o : Nat} (x : Mat n o) : Mat n o := fun j => max (x j) 0

/-- Row-locality: if a block's rows are rows of the whole matrices (row `y 0` of the block is row `i 0` of the whole),
    the weights and bias are read at the same column, then the layer of the block at `y` is the layer of the whole at `i`. -/
theorem dense_at {n nb k o : Nat} (A Fe : Mat n k) (a f : Mat nb k) (wl wr wl' wr' : Mat k o) (b b' : Mat 1 o)
    (y : (⟨2, ![nb, o]⟩ : Shape).Idx) (i : (⟨2, ![n, o]⟩ : Shape).Idx)
    (ha : ∀ t : Fin k, a (ix2 (y 0) t) = A (ix2 (i 0) t)) (hf : ∀ t : Fin k, f (ix2 (y 0) t) = Fe (ix2 (i 0) t))
    (hwl : ∀ t : Fin k, wl' (ix2 t (y 1)) = wl (ix2 t (i 1))) (hwr : ∀ t : Fin k, wr' (ix2 t (y 1)) = wr (ix2 t (i 1)))
    (hb : b' (ix2 (0 : Fin 1) (y 1)) = b (ix2 (0 : Fin 1) (i 1))) :
    dense a f wl' wr' b' y = dense A Fe wl wr b i := by
  unfold dense
  simp only [ha, hf, hwl, hwr, hb]

end Cert.Sage

end
-- ==== Proof.KPay.lean ====
/-
  What the two kernel bodies store, read at an index of the block, at the extended reals.

  The first body stores  max( (x0 · x2 + x1 · x3) + row x4 , 0 )  and the second  (x0 · x2 + x1 · x3) + row x4 , where
  `·` is the matrix product into a zero accumulator (a finite sum over the shared axis), the narrowing of the operands
  to a shorter float format is the identity on extended reals, and the one-row bias block is repeated down the rows.
  So each is the dense layer of its blocks (bias last), the first followed by the rectifier.
-/
import proofs.«133395_j28372553957633_1_alg».proof.Proof.Gen.KernelIdeal.Skeleton
import proofs.«133395_j28372553957633_1_alg».proof.Proof.LibPlainDot
import proofs.«133395_j28372553957633_1_alg».proof.Proof.Spec
import Idealize.ShloMosaic.Lib.Pipeline.Value

noncomputable section

namespace Cert.SageK

open Idealize.ShloMosaic Idealize.ShloMosaic.ValueIdx Cert.KernelIdeal Cert.KernelIdeal.Gen Cert.Sage Cert.LibPlainDot

/-- The zero offsets of a whole-block access, spelt as the constant function. -/
theorem hz : (![0, 0] : Fin 2 → Nat) = fun _ => 0 := funext fun a => by fin_cases a <;> rfl

/-- The one-row bias block repeated down 2000 rows reads, at (p, q), the block at (0, q). -/
theorem biasRows256 (x4 : Vec Ideal S1x256 .f32) (p : Fin 2000) (q : Fin 256) :
    broadcastTo S2000x256 x4 broadcasts_S1x256_S2000x256 (ix2 p q) = x4 (ix2 (0 : Fin 1) q) := by
  exact broadcastTo_apply x4 broadcasts_S1x256_S2000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

theorem biasRows128 (x4 : Vec Ideal S1x128 .f32) (p : Fin 2000) (q : Fin 128) :
    broadcastTo S2000x128 x4 broadcasts_S1x128_S2000x128 (ix2 p q) = x4 (ix2 (0 : Fin 1) q) := by
  exact broadcastTo_apply x4 broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The first body's stored value is the rectified dense layer of its blocks. -/
theorem pay0_eq (x0 x1 : Vec Ideal S2000x128 .f32) (x2 x3 : Vec Ideal S128x256 .f32) (x4 : Vec Ideal S1x256 .f32) :
    k0_pay1 (F := Ideal) x0 x1 x2 x3 x4 = relu (dense (n := 2000) (k := 128) (o := 256) x0 x1 x2 x3 x4) := by
  funext y
  obtain ⟨p, q, rfl⟩ : ∃ (p : Fin 2000) (q : Fin 256), y = ix2 p q := ⟨y 0, y 1, eq_ix2 y⟩
  have e1 := matmul_plain_zero (M := 2000) (K := 128) (N := 256) (φ₁ := .bf16) (φ₂ := .bf16) none x0 x2 (ix2 p q)
  have e2 := matmul_plain_zero (M := 2000) (K := 128) (N := 256) (φ₁ := .bf16) (φ₂ := .bf16) none x1 x3 (ix2 p q)
  have e3 := biasRows256 x4 p q
  have e4 : Ideal.ofBits .f32 0x00000000#32 = (0 : EReal) := Ideal.ofBits_zero_f32
  simp only [k0_pay1, shapeCast_self, relu, dense]
  exact congrArg₂ max (congrArg₂ (· + ·) (congrArg₂ (· + ·) e1 e2) e3) e4

/-- The second body's stored value is the dense layer of its blocks. -/
theorem pay1_eq (x0 x1 : Vec Ideal S2000x256 .f32) (x2 x3 : Vec Ideal S256x128 .f32) (x4 : Vec Ideal S1x128 .f32) :
    k1_pay1 (F := Ideal) x0 x1 x2 x3 x4 = dense (n := 2000) (k := 256) (o := 128) x0 x1 x2 x3 x4 := by
  funext y
  obtain ⟨p, q, rfl⟩ : ∃ (p : Fin 2000) (q : Fin 128), y = ix2 p q := ⟨y 0, y 1, eq_ix2 y⟩
  have e1 := matmul_plain_zero (M := 2000) (K := 256) (N := 128) (φ₁ := .bf16) (φ₂ := .bf16) none x0 x2 (ix2 p q)
  have e2 := matmul_plain_zero (M := 2000) (K := 256) (N := 128) (φ₁ := .bf16) (φ₂ := .bf16) none x1 x3 (ix2 p q)
  have e3 := biasRows128 x4 p q
  simp only [k1_pay1, shapeCast_self, dense]
  exact congrArg₂ (· + ·) (congrArg₂ (· + ·) e1 e2) e3

end Cert.SageK

end
-- ==== Proof.KVal0.lean ====
/-
  The first region's output array as ONE function of the arrays it finds.

  The region runs its body at 25 grid points; point `t` reads rows 2000·t … 2000·t + 1999 of the neighbour means and of
  the features, the whole weight matrices and the bias row, and writes the same rows of the output. The body's stored block
  is the rectified dense layer of its input blocks, and a dense layer is row-local, so the stored block is that block of
  rows of the rectified layer of the whole arrays. The 25 blocks tile the output, so after the region the output array IS
  the rectified layer of the whole arrays.
-/
import proofs.«133395_j28372553957633_1_alg».proof.Proof.Gen.KernelIdeal.Frame
import proofs.«133395_j28372553957633_1_alg».proof.Proof.KPay
import Idealize.ShloMosaic.Lib.Pipeline.Value

set_option maxRecDepth 16384

noncomputable section

namespace Cert.SageK

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- The rectified layer of the WHOLE arrays the region finds: neighbour means, features, the two weight matrices, the
    bias row. -/
def layer0 (c : Dev nD) : S50000x256.Idx → EReal :=
  relu (dense (n := 50000) (k := 128) (o := 256) (V c main_v22) (V c main_arg0) (V c main_arg2) (V c main_arg3) (V c main_v23))

/-- The printed index maps over the 25 grid points: the row-blocked windows (means, features, output) sit at block row
    `t`, block column 0; the weights and the bias are the one whole block at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the whole rectified layer: rows 2000·t … 2000·t + 1999 of the layer read
    only those rows of the means and the features, which are the point's input blocks. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [pay0_eq]
  obtain ⟨a0, a1, b0, b1, c0, c1, d0, d1, e0, e1, f0, f1⟩ := idx0 t
  funext j
  show relu (dense (n := 2000) (k := 128) (o := 256) (iblk0 V c 0 t) (iblk0 V c 1 t) (iblk0 V c 2 t) (iblk0 V c 3 t) (iblk0 V c 4 t)) j
    = layer0 V c (((cfg0.win 5).blk t).view.emb j)
  unfold layer0 relu
  refine congrArg (max · 0) (dense_at (n := 50000) (nb := 2000) (k := 128) (o := 256) (V c main_v22) (V c main_arg0) (iblk0 V c 0 t) (iblk0 V c 1 t)
    (V c main_arg2) (V c main_arg3) (iblk0 V c 2 t) (iblk0 V c 3 t) (V c main_v23) (iblk0 V c 4 t) j (((cfg0.win 5).blk t).view.emb j)
    (fun k => ?_) (fun k => ?_) (fun k => ?_) (fun k => ?_) ?_)
  · -- a row of the means block is the same row of the whole means
    show V c main_v22 (((cfg0.win 0).blk t).view.emb (ix2 (j 0) k)) = _
    refine congrArg (V c main_v22) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · -- and of the features block
    show V c main_arg0 (((cfg0.win 1).blk t).view.emb (ix2 (j 0) k)) = _
    refine congrArg (V c main_arg0) (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · -- the weights' one block is the whole matrix
    show V c main_arg2 (((cfg0.win 2).blk t).view.emb (ix2 k (j 1))) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 256 + 1 * (j 1).val = win0_5.index t (1 : Fin 2) * 256 + 1 * (j 1).val; omega
  · show V c main_arg3 (((cfg0.win 3).blk t).view.emb (ix2 k (j 1))) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 256 + 1 * (j 1).val = win0_5.index t (1 : Fin 2) * 256 + 1 * (j 1).val; omega
  · -- so is the bias row's
    show V c main_v23 (((cfg0.win 4).blk t).view.emb (ix2 (0 : Fin 1) (j 1))) = _
    refine congrArg (V c main_v23) (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 256 + 1 * (j 1).val = win0_5.index t (1 : Fin 2) * 256 + 1 * (j 1).val; omega

/-- An index of the output array is in point `t`'s block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The 25 row blocks tile the output array: row `r` lies in the block of point `r / 2000`. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have ht : (i 0).val / 2000 < 25 := by omega
  obtain ⟨a0, a1, b0, b1, c0, c1, d0, d1, e0, e1, f0, f1⟩ := idx0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [f1]; omega

/-- The output array after the region is the rectified layer of the arrays the region found. -/
theorem final0 (c : Dev nD) : (dat0 V c).arrAt 5 cfg0.N = layer0 V c :=
  (dat0 V c).arrAt_eq_of_cover 5 (layer0 V c) (fun t _ => flushed0 V c t) (cover0)

end Cert.SageK

end
-- ==== Proof.KVal1.lean ====
/-
  The second region's output array as ONE function of the arrays it finds.

  As in the first region, point `t` of 25 reads rows 2000·t … 2000·t + 1999 of the neighbour means and of the (hidden)
  features, the whole weight matrices and the bias row, and writes the same rows of the output; here the stored block is
  the dense layer of its input blocks with no rectifier. Row-locality and the tiling by 25 blocks give: after the region
  the output array IS the dense layer of the whole arrays.
-/
import proofs.«133395_j28372553957633_1_alg».proof.Proof.Gen.KernelIdeal.Frame
import proofs.«133395_j28372553957633_1_alg».proof.Proof.KPay
import Idealize.ShloMosaic.Lib.Pipeline.Value

set_option maxRecDepth 16384

noncomputable section

namespace Cert.SageK

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- The layer of the WHOLE arrays the region finds: neighbour means of the hidden features, the hidden features, the two
    weight matrices, the bias row. -/
def layer1 (c : Dev nD) : S50000x128.Idx → EReal :=
  dense (n := 50000) (k := 256) (o := 128) (V c main_v36) (V c main_v24) (V c main_arg5) (V c main_arg6) (V c main_v37)

/-- The printed index maps over the 25 grid points: the row-blocked windows (means, features, output) sit at block row
    `t`, block column 0; the weights and the bias are the one whole block at every point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the whole layer. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  rw [pay1_eq]
  obtain ⟨a0, a1, b0, b1, c0, c1, d0, d1, e0, e1, f0, f1⟩ := idx1 t
  funext j
  show dense (n := 2000) (k := 256) (o := 128) (iblk1 V c 0 t) (iblk1 V c 1 t) (iblk1 V c 2 t) (iblk1 V c 3 t) (iblk1 V c 4 t) j
    = layer1 V c (((cfg1.win 5).blk t).view.emb j)
  unfold layer1
  refine (dense_at (n := 50000) (nb := 2000) (k := 256) (o := 128) (V c main_v36) (V c main_v24) (iblk1 V c 0 t) (iblk1 V c 1 t)
    (V c main_arg5) (V c main_arg6) (iblk1 V c 2 t) (iblk1 V c 3 t) (V c main_v37) (iblk1 V c 4 t) j (((cfg1.win 5).blk t).view.emb j)
    (fun k => ?_) (fun k => ?_) (fun k => ?_) (fun k => ?_) ?_)
  · -- a row of the means block is the same row of the whole means
    show V c main_v36 (((cfg1.win 0).blk t).view.emb (ix2 (j 0) k)) = _
    refine congrArg (V c main_v36) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · -- and of the features block
    show V c main_v24 (((cfg1.win 1).blk t).view.emb (ix2 (j 0) k)) = _
    refine congrArg (V c main_v24) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · -- the weights' one block is the whole matrix
    show V c main_arg5 (((cfg1.win 2).blk t).view.emb (ix2 k (j 1))) = _
    refine congrArg (V c main_arg5) (funext fun a => Fin.ext ?_)
    match a with
    | ⟨0, _⟩ => show win1_2.index t (0 : Fin 2) * 256 + 1 * k.val = k.val; omega
    | ⟨1, _⟩ => show win1_2.index t (1 : Fin 2) * 128 + 1 * (j 1).val = win1_5.index t (1 : Fin 2) * 128 + 1 * (j 1).val; omega
  · show V c main_arg6 (((cfg1.win 3).blk t).view.emb (ix2 k (j 1))) = _
    refine congrArg (V c main_arg6) (funext fun a => Fin.ext ?_)
    match a with
    | ⟨0, _⟩ => show win1_3.index t (0 : Fin 2) * 256 + 1 * k.val = k.val; omega
    | ⟨1, _⟩ => show win1_3.index t (1 : Fin 2) * 128 + 1 * (j 1).val = win1_5.index t (1 : Fin 2) * 128 + 1 * (j 1).val; omega
  · -- so is the bias row's
    show V c main_v37 (((cfg1.win 4).blk t).view.emb (ix2 (0 : Fin 1) (j 1))) = _
    refine congrArg (V c main_v37) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 128 + 1 * (j 1).val = win1_5.index t (1 : Fin 2) * 128 + 1 * (j 1).val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v38).slice (win1_5.rect t)).set ↔ _
  rw [View.set_slice_whole, Rect.mem_set_unit]
  exact Iff.rfl

/-- The 25 row blocks tile the output array: row `r` lies in the block of point `r / 2000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 2000 < 25 := by omega
  obtain ⟨a0, a1, b0, b1, c0, c1, d0, d1, e0, e1, f0, f1⟩ := idx1 ⟨(i 0).val / 2000, ht⟩
  refine ⟨⟨(i 0).val / 2000, ht⟩, flush1_5 _, ?_⟩
  rw [mem_blk1]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [f1]; omega

/-- The output array after the region is the dense layer of the arrays the region found. -/
theorem final1 (c : Dev nD) : (dat1 V c).arrAt 5 cfg1.N = layer1 V c :=
  (dat1 V c).arrAt_eq_of_cover 5 (layer1 V c) (fun t _ => flushed1 V c t) (cover1)

end Cert.SageK

end
-- ==== Proof.KHost.lean ====
/-
  The sparse half of a graph layer, as the kernel program's host operations compute it, named as functions.

  From the edge list (row 0 the source node of each edge, row 1 its destination): a source number below zero is moved up by
  the node count; each edge gathers its source's feature row; rows are summed into their destination nodes; the sum is
  divided by the destination's in-degree (counted by summing ones, and raised to at least one). The result is the matrix
  of neighbour means. The proof never opens these functions: both programs apply the same ones.
-/
import proofs.«133395_j28372553957633_1_alg».proof.Proof.Gen.KernelIdeal
import proofs.«133395_j28372553957633_1_alg».proof.Proof.Spec

noncomputable section

namespace Cert.SageK

open Idealize.ShloMosaic Cert.KernelIdeal Cert.KernelIdeal.Gen

variable {F : FTy → Type} [FloatOps F]

/-- Row `r` of the edge list as a vector of node numbers. -/
def srcOf (ei : IVec S2x800000 32) : IVec S800000 32 :=
  shapeCast S800000 (extractStridedSlice S1x800000 ![0, 0] ei slices_S2x800000_S1x800000_0_0) shapeCasts_S1x800000_S800000
def dstOf (ei : IVec S2x800000 32) : IVec S800000 32 :=
  shapeCast S800000 (extractStridedSlice S1x800000 ![1, 0] ei slices_S2x800000_S1x800000_1_0) shapeCasts_S1x800000_S800000

/-- Node numbers as a column of one-entry index vectors. -/
def colIdx (d : IVec S800000 32) : IVec S800000x1 32 := broadcastInDim S800000x1 ![0] bcast_S800000_S800000x1_0 d

/-- Source numbers with the negative ones moved up by the node count, as a column. -/
def normIdx (s : IVec S800000 32) : IVec S800000x1 32 :=
  colIdx (select (cmpi .slt s (broadcastInDim S800000 ![] bcast_S_S800000 (constantI S_ 32 0#32)))
    (addi s (broadcastInDim S800000 ![] bcast_S_S800000 (constantI S_ 32 50000#32))) s)

/-- Each node's in-degree, at least one, as a column. -/
def degree (ei : IVec S2x800000 32) : FVec F S50000x1 .f32 :=
  broadcastInDim S50000x1 ![0] bcast_S50000_S50000x1_0
    (maximumf
      (Host.scatterAdd scatter_S50000_S800000x1_S800000_n_0_0_1
        (broadcastInDim S50000 ![] bcast_S_S50000 (constant (F := F) S_ .f32 0x00000000#32))
        (colIdx (dstOf ei))
        (broadcastInDim S800000 ![] bcast_S_S800000 (constant (F := F) S_ .f32 0x3F800000#32)))
      (broadcastInDim S50000 ![] bcast_S_S50000 (constant (F := F) S_ .f32 0x3F800000#32)))

/-- The neighbour means of a 128-column feature matrix. -/
def mean128 (x : FVec F S50000x128 .f32) (ei : IVec S2x800000 32) : FVec F S50000x128 .f32 :=
  Host.divf
    (Host.scatterAdd scatter_S50000x128_S800000x1_S800000x128_1_0_0_1
      (broadcastInDim S50000x128 ![] bcast_S_S50000x128 (constant (F := F) S_ .f32 0x00000000#32))
      (colIdx (dstOf ei))
      (Host.gather gather_S50000x128_S800000x1_S800000x128_1_0_n_n_0_1_1128 x (normIdx (srcOf ei))))
    (broadcastInDim S50000x128 ![0, 1] bcast_S50000x1_S50000x128_0_1 (degree (F := F) ei))

/-- The neighbour means of a 256-column feature matrix. -/
def mean256 (h : FVec F S50000x256 .f32) (ei : IVec S2x800000 32) : FVec F S50000x256 .f32 :=
  Host.divf
    (Host.scatterAdd scatter_S50000x256_S800000x1_S800000x256_1_0_0_1
      (broadcastInDim S50000x256 ![] bcast_S_S50000x256 (constant (F := F) S_ .f32 0x00000000#32))
      (colIdx (dstOf ei))
      (Host.gather gather_S50000x256_S800000x1_S800000x256_1_0_n_n_0_1_1256 h (normIdx (srcOf ei))))
    (broadcastInDim S50000x256 ![0, 1] bcast_S50000x1_S50000x256_0_1 (degree (F := F) ei))

/-! ## The whole computation, at the extended reals -/

open Cert.Sage in
/-- The hidden features: the rectified first layer of the input features and their neighbour means. -/
def hidden (x : Mat 50000 128) (ei : IVec S2x800000 32) (wl wr : Mat 128 256) (b : Vec1 256) : Mat 50000 256 :=
  relu (dense (mean128 (F := Ideal) x ei) x wl wr (rowOf b))

open Cert.Sage in
/-- The result: the second layer of the hidden features and their neighbour means over the same edge list. -/
def output (x : Mat 50000 128) (ei : IVec S2x800000 32) (w1l w1r : Mat 128 256) (b1 : Vec1 256)
    (w2l w2r : Mat 256 128) (b2 : Vec1 128) : Mat 50000 128 :=
  dense (mean256 (F := Ideal) (hidden x ei w1l w1r b1) ei) (hidden x ei w1l w1r b1) w2l w2r (rowOf b2)

end Cert.SageK

end
-- ==== Proof.KFold.lean ====
/-
  What each region finds in its arrays: the host operations before it, read back as functions of the launch arguments.

  Before the first region the host computes the neighbour means of the input features and lays the first bias out as a
  row; the features and weights are the arguments themselves. Between the regions it computes the neighbour means of the
  first region's output (the hidden features) over the same edge list and lays out the second bias; the first region
  leaves every buffer but its output as it found it.
-/
import proofs.«133395_j28372553957633_1_alg».proof.Proof.Gen.KernelIdeal.Frame
import proofs.«133395_j28372553957633_1_alg».proof.Proof.KHost
import Idealize.ShloMosaic.Lib.StableHlo.Run

set_option maxRecDepth 16384

noncomputable section

namespace Cert.SageK

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-! ## At the first region's entry -/

/-- The first window's array holds the neighbour means of the input features. -/
theorem W1_means (c : Dev nD) : W1 m ρ c (Proc.devRef .tc main_v22)
    = mean128 (m ((c : Thread nD τ).loc main_arg0)) (m ((c : Thread nD τ).loc main_arg1)) := by
  show StableHlo.after hostOps0 _ (Proc.devRef .tc main_v22) = _
  after_results_simp
  rfl

theorem W1_src (c : Dev nD) : W1 m ρ c (Proc.devRef .tc main_v1) = srcOf (m ((c : Thread nD τ).loc main_arg1)) := by
  show StableHlo.after hostOps0 _ (Proc.devRef .tc main_v1) = _
  after_results_simp
  rfl

theorem W1_dst (c : Dev nD) : W1 m ρ c (Proc.devRef .tc main_v3) = dstOf (m ((c : Thread nD τ).loc main_arg1)) := by
  show StableHlo.after hostOps0 _ (Proc.devRef .tc main_v3) = _
  after_results_simp
  rfl

theorem W1_degree (c : Dev nD) : W1 m ρ c (Proc.devRef .tc main_v10) = degree (F := F) (m ((c : Thread nD τ).loc main_arg1)) := by
  show StableHlo.after hostOps0 _ (Proc.devRef .tc main_v10) = _
  after_results_simp
  rfl

/-- The bias vector laid out as a one-row matrix. -/
theorem W1_bias (c : Dev nD) : W1 m ρ c (Proc.devRef .tc main_v23)
    = shapeCast S1x256 (m ((c : Thread nD τ).loc main_arg4)) shapeCasts_S256_S1x256 := by
  show StableHlo.after hostOps0 _ (Proc.devRef .tc main_v23) = _
  after_results_simp
  rfl

/-- No host operation writes an argument: it is still the launch contents. -/
theorem W1_arg0 (c : Dev nD) : W1 m ρ c (Proc.devRef .tc main_arg0) = m ((c : Thread nD τ).loc main_arg0) := by
  show StableHlo.after hostOps0 _ (Proc.devRef .tc main_arg0) = _
  after_results_simp <;> rfl
theorem W1_arg2 (c : Dev nD) : W1 m ρ c (Proc.devRef .tc main_arg2) = m ((c : Thread nD τ).loc main_arg2) := by
  show StableHlo.after hostOps0 _ (Proc.devRef .tc main_arg2) = _
  after_results_simp <;> rfl
theorem W1_arg3 (c : Dev nD) : W1 m ρ c (Proc.devRef .tc main_arg3) = m ((c : Thread nD τ).loc main_arg3) := by
  show StableHlo.after hostOps0 _ (Proc.devRef .tc main_arg3) = _
  after_results_simp <;> rfl
theorem W1_arg5 (c : Dev nD) : W1 m ρ c (Proc.devRef .tc main_arg5) = m ((c : Thread nD τ).loc main_arg5) := by
  show StableHlo.after hostOps0 _ (Proc.devRef .tc main_arg5) = _
  after_results_simp <;> rfl
theorem W1_arg6 (c : Dev nD) : W1 m ρ c (Proc.devRef .tc main_arg6) = m ((c : Thread nD τ).loc main_arg6) := by
  show StableHlo.after hostOps0 _ (Proc.devRef .tc main_arg6) = _
  after_results_simp <;> rfl
theorem W1_arg7 (c : Dev nD) : W1 m ρ c (Proc.devRef .tc main_arg7) = m ((c : Thread nD τ).loc main_arg7) := by
  show StableHlo.after hostOps0 _ (Proc.devRef .tc main_arg7) = _
  after_results_simp <;> rfl

/-! ## At the first region's exit: only its output array has changed -/

theorem W2_src (c : Dev nD) : W2 m ρ c (Proc.devRef .tc main_v1) = srcOf (m ((c : Thread nD τ).loc main_arg1)) :=
  (W2_of_ne m ρ c main_v1 (by decide)).trans (W1_src m ρ c)
theorem W2_dst (c : Dev nD) : W2 m ρ c (Proc.devRef .tc main_v3) = dstOf (m ((c : Thread nD τ).loc main_arg1)) :=
  (W2_of_ne m ρ c main_v3 (by decide)).trans (W1_dst m ρ c)
theorem W2_degree (c : Dev nD) : W2 m ρ c (Proc.devRef .tc main_v10) = degree (F := F) (m ((c : Thread nD τ).loc main_arg1)) :=
  (W2_of_ne m ρ c main_v10 (by decide)).trans (W1_degree m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## At the second region's entry -/

/-- The second region's neighbour means are those of the first region's output, over the same edge list. -/
theorem W3_means (c : Dev nD) : W3 m ρ c (Proc.devRef .tc main_v36)
    = mean256 (W2 m ρ c (Proc.devRef .tc main_v24)) (m ((c : Thread nD τ).loc main_arg1)) := by
  show StableHlo.after hostOps1 _ (Proc.devRef .tc main_v36) = _
  after_results_simp
  rw [W2_src, W2_dst, W2_degree]
  rfl

/-- The host operations between the regions do not write the first region's output. -/
theorem W3_hidden (c : Dev nD) : W3 m ρ c (Proc.devRef .tc main_v24) = W2 m ρ c (Proc.devRef .tc main_v24) := by
  show StableHlo.after hostOps1 _ (Proc.devRef .tc main_v24) = _
  after_results_simp <;> rfl

theorem W3_bias (c : Dev nD) : W3 m ρ c (Proc.devRef .tc main_v37)
    = shapeCast S1x128 (m ((c : Thread nD τ).loc main_arg7)) shapeCasts_S128_S1x128 := by
  show StableHlo.after hostOps1 _ (Proc.devRef .tc main_v37) = _
  after_results_simp
  rw [W2_arg7]
  rfl

theorem W3_arg5 (c : Dev nD) : W3 m ρ c (Proc.devRef .tc main_arg5) = m ((c : Thread nD τ).loc main_arg5) := by
  show StableHlo.after hostOps1 _ (Proc.devRef .tc main_arg5) = _
  after_results_simp
  exact W2_arg5 m ρ c
theorem W3_arg6 (c : Dev nD) : W3 m ρ c (Proc.devRef .tc main_arg6) = m ((c : Thread nD τ).loc main_arg6) := by
  show StableHlo.after hostOps1 _ (Proc.devRef .tc main_arg6) = _
  after_results_simp
  exact W2_arg6 m ρ c

end Cert.SageK

end
-- ==== Proof.KOut.lean ====
/-
  The idealized kernel program's run with its result as ONE function of the launch arguments.

  The first region finds the neighbour means of the input features, the features, the first layer's weights and bias, and
  leaves the hidden features in its output array. The host then takes the neighbour means of that array; the second region
  finds those, the hidden features, the second layer's weights and bias, and leaves the result. So the result buffer ends
  at `output` of the arguments, and the arguments end as launched.
-/
import proofs.«133395_j28372553957633_1_alg».proof.Proof.KRun
import proofs.«133395_j28372553957633_1_alg».proof.Proof.KVal0
import proofs.«133395_j28372553957633_1_alg».proof.Proof.KVal1
import proofs.«133395_j28372553957633_1_alg».proof.Proof.KFold

set_option maxRecDepth 16384

noncomputable section

namespace Cert.SageK

open Idealize.ShloMosaic Idealize.ShloMosaic.TcCoe Idealize.ShloMosaic.ValueIdx Idealize.SL.Sem
open Cert.KernelIdeal Cert.KernelIdeal.Gen Cert.Sage

/-- A vector recast as a one-row matrix reads, at (0, q), the vector at q. -/
theorem row256 (b : FVec Ideal S256 .f32) : shapeCast S1x256 b shapeCasts_S256_S1x256 = rowOf (c := 256) b := by
  funext i
  obtain ⟨z, q, rfl⟩ : ∃ (z : Fin 1) (q : Fin 256), i = ix2 z q := ⟨i 0, i 1, eq_ix2 i⟩
  exact shapeCast_apply b shapeCasts_S256_S1x256 (ix2 z q) (ix1 q) (by
    rw [Shape.rowMajor_val_one, Shape.rowMajor_val_two]
    show q.val = z.val * 256 + q.val
    have := z.isLt
    omega)

theorem row128 (b : FVec Ideal S128 .f32) : shapeCast S1x128 b shapeCasts_S128_S1x128 = rowOf (c := 128) b := by
  funext i
  obtain ⟨z, q, rfl⟩ : ∃ (z : Fin 1) (q : Fin 128), i = ix2 z q := ⟨i 0, i 1, eq_ix2 i⟩
  exact shapeCast_apply b shapeCasts_S128_S1x128 (ix2 z q) (ix1 q) (by
    rw [Shape.rowMajor_val_one, Shape.rowMajor_val_two]
    show q.val = z.val * 128 + q.val
    have := z.isLt
    omega)

variable (m : (ℓ : Loc nD τ sig) → Buf (Elt Ideal) ℓ) (ρ : Dev nD → PrngReg)

/-- After the first region its output array holds the hidden features. -/
theorem hidden_eq (c : Dev nD) : W2 m ρ c (Proc.devRef .tc main_v24)
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  have e0 : V1 m ρ c main_v22 = mean128 (F := Ideal) (m ((c : Thread nD τ).loc main_arg0)) (m ((c : Thread nD τ).loc main_arg1)) := W1_means m ρ c
  have e1 : V1 m ρ c main_arg0 = (m ((c : Thread nD τ).loc main_arg0)) := W1_arg0 m ρ c
  have e2 : V1 m ρ c main_arg2 = (m ((c : Thread nD τ).loc main_arg2)) := W1_arg2 m ρ c
  have e3 : V1 m ρ c main_arg3 = (m ((c : Thread nD τ).loc main_arg3)) := W1_arg3 m ρ c
  have e4 : V1 m ρ c main_v23 = rowOf (c := 256) (m ((c : Thread nD τ).loc main_arg4)) := (W1_bias m ρ c).trans (row256 _)
  refine ((W2_arr m ρ c 5).trans (final0 (V1 m ρ) c)).trans ?_
  unfold layer0 hidden
  rw [e0, e1, e2, e3, e4]

/-- After the second region the result buffer holds `output` of the arguments. -/
theorem result_eq (c : Dev nD) : W4 m ρ c (Proc.devRef .tc main_v38)
    = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h : W2 m ρ c (Proc.devRef .tc main_v24) = hidden (m ((c : Thread nD τ).loc main_arg0)) (m ((c : Thread nD τ).loc main_arg1)) (m ((c : Thread nD τ).loc main_arg2)) (m ((c : Thread nD τ).loc main_arg3)) (m ((c : Thread nD τ).loc main_arg4)) := hidden_eq m ρ c
  have e0 : V3 m ρ c main_v36 = mean256 (F := Ideal) (hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
    (W3_means m ρ c).trans (by rw [h])
  have e1 : V3 m ρ c main_v24 = hidden (m ((c : Thread nD τ).loc main_arg0)) (m ((c : Thread nD τ).loc main_arg1)) (m ((c : Thread nD τ).loc main_arg2)) (m ((c : Thread nD τ).loc main_arg3)) (m ((c : Thread nD τ).loc main_arg4)) := (W3_hidden m ρ c).trans h
  have e2 : V3 m ρ c main_arg5 = (m ((c : Thread nD τ).loc main_arg5)) := W3_arg5 m ρ c
  have e3 : V3 m ρ c main_arg6 = (m ((c : Thread nD τ).loc main_arg6)) := W3_arg6 m ρ c
  have e4 : V3 m ρ c main_v37 = rowOf (c := 128) (m ((c : Thread nD τ).loc main_arg7)) := (W3_bias m ρ c).trans (row128 _)
  refine ((W4_arr m ρ c 5).trans (final1 (V3 m ρ) c)).trans ?_
  unfold layer1 output
  rw [e0, e1, e2, e3, e4]

/-- Every weakly fair execution of the idealized kernel program terminates with the result buffer at `output` of the
    launch arguments and the arguments as launched. -/
theorem run : θ_run defs (onTc (τ := τ) (main (F := Ideal))) ⟨m, fun _ => 0, ρ⟩ (fun r => ∀ c : Dev nD,
      r.2.mem ((c.tc : Thread nD τ).loc main_v38) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Named.run m ρ)

end Cert.SageK

end
-- ==== Proof.RefBridge.lean ====
/-
  The reference program's result is the same function of the arguments as the kernel program's.

  The reference computes each layer on the host as  (means · W_l + bias) + features · W_r : two matrix products, each a
  finite sum over the shared axis at an index, with the bias (a vector laid along the columns by two broadcasts) added
  BETWEEN them. That is the dense layer with the bias in the middle, which equals the one with the bias last. Its
  neighbour means are computed by the same host operations as the kernel program's, so they are the same functions; its
  rectifier is the larger of the entry and the zero constant.
-/
import proofs.«133395_j28372553957633_1_alg».proof.Proof.Gen.ReferenceIdeal.Read
import proofs.«133395_j28372553957633_1_alg».proof.Proof.KHost
import proofs.«133395_j28372553957633_1_alg».proof.Proof.LibPlainDot

noncomputable section

namespace Cert.SageR

open Idealize.ShloMosaic Idealize.ShloMosaic.ValueIdx Cert.Sage Cert.LibPlainDot
open Cert.ReferenceIdeal Cert.ReferenceIdeal.Gen Cert.ReferenceIdeal.Read

/-- The host's first dense layer, at an index: the dense layer with the bias added between the two products. -/
theorem refLayer1 (a f : FVec Ideal S50000x128 .f32) (wl wr : FVec Ideal S128x256 .f32) (b : FVec Ideal S256 .f32) :
    addf (addf (Host.dotGeneral dot_S50000x128_S128x256_S50000x256_1_0_0_1_n_n none a wl)
        (broadcastInDim S50000x256 ![0, 1] bcast_S1x256_S50000x256_0_1 (broadcastInDim S1x256 ![1] bcast_S256_S1x256_1 b)))
      (Host.dotGeneral dot_S50000x128_S128x256_S50000x256_1_0_0_1_n_n none f wr)
    = denseMid (n := 50000) (k := 128) (o := 256) a f wl wr (rowOf b) := by
  funext j
  obtain ⟨p, q, rfl⟩ : ∃ (p : Fin 50000) (q : Fin 256), j = ix2 p q := ⟨j 0, j 1, eq_ix2 j⟩
  exact congrArg₂ (· + ·)
    (congrArg₂ (· + ·) (dotGeneral_plain (M := 50000) (K := 128) (N := 256) none _ a wl (ix2 p q))
      (rowBroadcastInDim_apply (R := 50000) (C := 256) b bcast_S256_S1x256_1 bcast_S1x256_S50000x256_0_1 p q))
    (dotGeneral_plain (M := 50000) (K := 128) (N := 256) none _ f wr (ix2 p q))

/-- The host's second dense layer, at an index. -/
theorem refLayer2 (a f : FVec Ideal S50000x256 .f32) (wl wr : FVec Ideal S256x128 .f32) (b : FVec Ideal S128 .f32) :
    addf (addf (Host.dotGeneral dot_S50000x256_S256x128_S50000x128_1_0_0_1_n_n none a wl)
        (broadcastInDim S50000x128 ![0, 1] bcast_S1x128_S50000x128_0_1 (broadcastInDim S1x128 ![1] bcast_S128_S1x128_1 b)))
      (Host.dotGeneral dot_S50000x256_S256x128_S50000x128_1_0_0_1_n_n none f wr)
    = denseMid (n := 50000) (k := 256) (o := 128) a f wl wr (rowOf b) := by
  funext j
  obtain ⟨p, q, rfl⟩ : ∃ (p : Fin 50000) (q : Fin 128), j = ix2 p q := ⟨j 0, j 1, eq_ix2 j⟩
  exact congrArg₂ (· + ·)
    (congrArg₂ (· + ·) (dotGeneral_plain (M := 50000) (K := 256) (N := 128) none _ a wl (ix2 p q))
      (rowBroadcastInDim_apply (R := 50000) (C := 128) b bcast_S128_S1x128_1 bcast_S1x128_S50000x128_0_1 p q))
    (dotGeneral_plain (M := 50000) (K := 256) (N := 128) none _ f wr (ix2 p q))

/-- The reference's neighbour means of the input features are the kernel program's: the same host operations. -/
theorem means1 (x0 : FVec Ideal S50000x128 .f32) (x1 : IVec S2x800000 32) :
    val_main_v22 (F := Ideal) x0 x1 = Cert.SageK.mean128 (F := Ideal) x0 x1 := rfl

/-- So are its neighbour means of the hidden features, whatever those are. -/
theorem means2 (x0 : FVec Ideal S50000x128 .f32) (x1 : IVec S2x800000 32) (x2 x3 : FVec Ideal S128x256 .f32) (x4 : FVec Ideal S256 .f32) :
    val_main_v48 (F := Ideal) x0 x1 x2 x3 x4 = Cert.SageK.mean256 (F := Ideal) (val_main_v29 (F := Ideal) x0 x1 x2 x3 x4) x1 := rfl

/-- The reference's hidden features are the kernel program's. -/
theorem hidden_ref (x0 : FVec Ideal S50000x128 .f32) (x1 : IVec S2x800000 32) (x2 x3 : FVec Ideal S128x256 .f32) (x4 : FVec Ideal S256 .f32) :
    val_main_v29 (F := Ideal) x0 x1 x2 x3 x4 = Cert.SageK.hidden x0 x1 x2 x3 x4 := by
  have h28 : val_main_v28 (F := Ideal) x0 x1 x2 x3 x4
      = denseMid (n := 50000) (k := 128) (o := 256) (val_main_v22 (F := Ideal) x0 x1) x0 x2 x3 (rowOf x4) :=
    refLayer1 _ _ _ _ _
  funext j
  rw [val_main_v29_apply, val_main_call0_v0_apply, val_main_call0_cst_apply, h28, denseMid_eq, means1]
  exact congrArg (max _) Ideal.ofBits_zero_f32

/-- The reference's result is the kernel program's. -/
theorem output_ref (x0 : FVec Ideal S50000x128 .f32) (x1 : IVec S2x800000 32) (x2 x3 : FVec Ideal S128x256 .f32) (x4 : FVec Ideal S256 .f32)
    (x5 x6 : FVec Ideal S256x128 .f32) (x7 : FVec Ideal S128 .f32) :
    val_main_v54 (F := Ideal) x0 x1 x2 x3 x4 x5 x6 x7 = Cert.SageK.output x0 x1 x2 x3 x4 x5 x6 x7 := by
  have h54 : val_main_v54 (F := Ideal) x0 x1 x2 x3 x4 x5 x6 x7
      = denseMid (n := 50000) (k := 256) (o := 128) (val_main_v48 (F := Ideal) x0 x1 x2 x3 x4) (val_main_v29 (F := Ideal) x0 x1 x2 x3 x4) x5 x6 (rowOf x7) :=
    refLayer2 _ _ _ _ _
  unfold Cert.SageK.output
  rw [h54, denseMid_eq, means2, hidden_ref]

end Cert.SageR

end
-- ==== Proof.lean ====
/-
  A two-layer graph encoder with mean aggregation: the kernel program against its reference, over the extended reals.

  Each layer takes node features f, forms the matrix a of neighbour means (gather the source rows of the edges, sum them
  into their destination nodes, divide by the in-degree raised to at least one), and returns
      a · W_l + f · W_r + b ,
  rectified after the first layer. Both programs compute the neighbour means with the same host operations, so those are
  carried as one function and never opened. The kernel program computes the dense part in two pallas_calls, each over 25
  blocks of 2000 rows, with the operands narrowed to a shorter float format (the identity on extended reals) and the bias
  added last; the reference computes it on the host with the bias added between the two products. The two orders agree by
  commutativity and associativity of addition, which hold on the extended reals without any finiteness, so the
  precondition is not used.

  The kernel programs' frames are the generated ones; the reference's frame is its generated run with the result dropped;
  the ideal pass rewrote nothing, so the idealization claim is trivial.
-/
import proofs.«133395_j28372553957633_1_alg».proof.Defs
import proofs.«133395_j28372553957633_1_alg».proof.Proof.Gen.Kernel
import proofs.«133395_j28372553957633_1_alg».proof.Proof.Gen.Kernel.Skeleton
import proofs.«133395_j28372553957633_1_alg».proof.Proof.Gen.Kernel.Launch
import proofs.«133395_j28372553957633_1_alg».proof.Proof.Gen.Kernel.Points
import proofs.«133395_j28372553957633_1_alg».proof.Proof.Gen.Kernel.Frame
import proofs.«133395_j28372553957633_1_alg».proof.Proof.Gen.KernelIdeal
import proofs.«133395_j28372553957633_1_alg».proof.Proof.Gen.KernelIdeal.Skeleton
import proofs.«133395_j28372553957633_1_alg».proof.Proof.Gen.KernelIdeal.Launch
import proofs.«133395_j28372553957633_1_alg».proof.Proof.Gen.KernelIdeal.Points
import proofs.«133395_j28372553957633_1_alg».proof.Proof.Gen.KernelIdeal.Frame
import proofs.«133395_j28372553957633_1_alg».proof.Proof.Gen.ReferenceIdeal
import proofs.«133395_j28372553957633_1_alg».proof.Proof.Gen.Pre_finite_inputs
import proofs.«133395_j28372553957633_1_alg».proof.Proof.Gen.ReferenceIdeal.Run
import proofs.«133395_j28372553957633_1_alg».proof.Proof.Gen.ReferenceIdeal.Read
import proofs.«133395_j28372553957633_1_alg».proof.Proof.KOut
import proofs.«133395_j28372553957633_1_alg».proof.Proof.RefBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at `output` of the arguments, which agree. -/
theorem algebraic : Cert.algebraic_KernelIdeal_ReferenceIdeal := by
  intro m ρ m' ρ' _ hagree
  refine ⟨_, Cert.SageK.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, Cert.SageR.output_ref, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
